-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x3 : Shape := ⟨2, ![2000000, 3]⟩
abbrev S100000x4 : Shape := ⟨2, ![100000, 4]⟩
abbrev S32x4 : Shape := ⟨2, ![32, 4]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S32x4 : S_.BroadcastsInDim S32x4 (![] : Fin 0 → Fin S32x4.rank)
  reducesTo_S32x4_S_d0_1 : S32x4.ReducesTo [0, 1] S_

variable [Facts]

def fn {F : FTy → Type} [FloatOps F] (main_arg0 : IVec S2000000 32) (main_arg1 : FVec F S2000000x3 .f32) (main_arg2 : FVec F S100000x4 .f32) (main_arg3 : FVec F S32x4 .f32) : IVec S_ 1 :=
  let main_v0 : FVec F S2000000x3 .f32 := Host.absf main_arg1
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S100000x4 .f32 := Host.absf main_arg2
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S32x4 .f32 := Host.absf main_arg3
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_c_3 : IVec S_ 1 := constantI S_ 1 1#1
  let main_v12 : IVec S_ 1 := (fun x v => Host.reduce IntOp.andi x v reducesTo_S32x4_S_d0_1 h_S_) main_v11 main_c_3
  let main_v13 : IVec S_ 1 := andi main_v8 main_v12
  main_v13
-- ==== Kernel.lean ====
abbrev S2000000 : Shape := ⟨1, ![2000000]⟩
abbrev S2000000x3 : Shape := ⟨2, ![2000000, 3]⟩
abbrev S100000x4 : Shape := ⟨2, ![100000, 4]⟩
abbrev S32x4 : Shape := ⟨2, ![32, 4]⟩
abbrev S4 : Shape := ⟨1, ![4]⟩
abbrev S_ : Shape := ⟨0, ![]⟩
abbrev S2000000x1 : Shape := ⟨2, ![2000000, 1]⟩
abbrev S2000000x4 : Shape := ⟨2, ![2000000, 4]⟩
abbrev S4x1 : Shape := ⟨2, ![4, 1]⟩
abbrev S4x32 : Shape := ⟨2, ![4, 32]⟩
abbrev S2000000x32 : Shape := ⟨2, ![2000000, 32]⟩
abbrev S16000x4 : Shape := ⟨2, ![16000, 4]⟩
abbrev S16000x32 : Shape := ⟨2, ![16000, 32]⟩

abbrev nBuf : Space → Nat
  | .hbm => 25
  | .vmem => 5
  | .smem => 0
  | _ => 0

abbrev bufTy : (tb : Table) → Fin (tcTables nBuf tb) → BufTy
  | .hbm, ⟨0, _⟩ => ⟨S2000000, .i32⟩
  | .hbm, ⟨1, _⟩ => ⟨S2000000x3, .f32⟩
  | .hbm, ⟨2, _⟩ => ⟨S100000x4, .f32⟩
  | .hbm, ⟨3, _⟩ => ⟨S32x4, .f32⟩
  | .hbm, ⟨4, _⟩ => ⟨S4, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x4, .f32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S2000000x4, .f32⟩
  | .hbm, ⟨23, _⟩ => ⟨S4x32, .f32⟩
  | .hbm, ⟨24, _⟩ => ⟨S2000000x32, .f32⟩
  | .local _ .vmem, ⟨0, _⟩ => ⟨S16000x4, .f32⟩
  | .local _ .vmem, ⟨1, _⟩ => ⟨S16000x4, .f32⟩
  | .local _ .vmem, ⟨2, _⟩ => ⟨S4x32, .f32⟩
  | .local _ .vmem, ⟨3, _⟩ => ⟨S16000x32, .f32⟩
  | .local _ .vmem, ⟨4, _⟩ => ⟨S16000x32, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S4 : S_.BroadcastsInDim S4 (![] : Fin 0 → Fin S4.rank)
  bcast_S4_S4x1_0 : S4.BroadcastsInDim S4x1 (![0] : Fin 1 → Fin S4x1.rank)
  transposes_S32x4_S4x32_1_0 : S32x4.Transposes [1, 0] S4x32
  inb_S16000x4_S16000x4_0_0 : ∀ a, (![0, 0] : Fin 2 → Nat) a + S16000x4.size a ≤ S16000x4.size a
  h_S16000x4 : 0 < S16000x4.numel
  shapeCasts_S16000x4_S16000x4 : S16000x4.ShapeCasts S16000x4
  bitsLt_bf16_f32 : FTy.bits .bf16 < FTy.bits .f32
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S16000x32_S16000x32_0_0 : ∀ a, (![0, 0] : Fin 2 → Nat) a + S16000x32.size a ≤ S16000x32.size a
  h_S16000x32 : 0 < S16000x32.numel
  gather_S100000x4_S2000000x1_S2000000x4_1_0_n_n_0_1_14_wf : GatherDims.WF S100000x4 S2000000x1 S2000000x4 [1] [0] [] [0] [] 1 ![1, 4]
  gather_S2000000x4_S4x1_S2000000x4_0_1_n_n_1_1_20000001_wf : GatherDims.WF S2000000x4 S4x1 S2000000x4 [0] [1] [] [1] [] 1 ![2000000, 1]
  dot_S16000x4_S4x32_S16000x32_1_0_0_1_n_n_wf : DotDims.WF S16000x4 S4x32 S16000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x4.size a ≤ S2000000x4.size a
  hwx0_0 : ∀ i : grid0.Coords, EltTy.bits .f32 = 32 ∨ (Rect.block (s := S2000000x4) S16000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x32.size a ≤ S2000000x32.size a
  hwx0_2 : ∀ i : grid0.Coords, EltTy.bits .f32 = 32 ∨ (Rect.block (s := S2000000x32) S16000x32.size (cc0_transform_2 i) (hinb0_2 i)).WholeWords (EltTy.packing .f32)

variable [Facts₀]

def gather_S100000x4_S2000000x1_S2000000x4_1_0_n_n_0_1_14 : GatherDims S100000x4 S2000000x1 S2000000x4 where
  offsetDims := [1]
  collapsedSliceDims := [0]
  operandBatchingDims := []
  startIndicesBatchingDims := []
  startIndexMap := [0]
  indexVectorDim := 1
  sliceSizes := ![1, 4]
  wf := gather_S100000x4_S2000000x1_S2000000x4_1_0_n_n_0_1_14_wf
def gather_S2000000x4_S4x1_S2000000x4_0_1_n_n_1_1_20000001 : GatherDims S2000000x4 S4x1 S2000000x4 where
  offsetDims := [0]
  collapsedSliceDims := [1]
  operandBatchingDims := []
  startIndicesBatchingDims := []
  startIndexMap := [1]
  indexVectorDim := 1
  sliceSizes := ![2000000, 1]
  wf := gather_S2000000x4_S4x1_S2000000x4_0_1_n_n_1_1_20000001_wf
def dot_S16000x4_S4x32_S16000x32_1_0_0_1_n_n : DotDims S16000x4 S4x32 S16000x32 where
  lhsContracting := [1]
  rhsContracting := [0]
  lhsNonContracting := [0]
  rhsNonContracting := [1]
  lhsBatch := []
  rhsBatch := []
  wf := dot_S16000x4_S4x32_S16000x32_1_0_0_1_n_n_wf

abbrev win0_0 : Pipeline.Window sig grid0 :=
  Pipeline.Window.ofSpec (Memref.whole main_v13) S16000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000 : Shape := ⟨1, ![2000000]⟩
abbrev S2000000x3 : Shape := ⟨2, ![2000000, 3]⟩
abbrev S100000x4 : Shape := ⟨2, ![100000, 4]⟩
abbrev S32x4 : Shape := ⟨2, ![32, 4]⟩
abbrev S4 : Shape := ⟨1, ![4]⟩
abbrev S_ : Shape := ⟨0, ![]⟩
abbrev S2000000x1 : Shape := ⟨2, ![2000000, 1]⟩
abbrev S2000000x4 : Shape := ⟨2, ![2000000, 4]⟩
abbrev S4x1 : Shape := ⟨2, ![4, 1]⟩
abbrev S2000000x32 : Shape := ⟨2, ![2000000, 32]⟩

abbrev nBuf : Space → Nat
  | .hbm => 26
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000x3, .f32⟩
  | .hbm, ⟨2, _⟩ => ⟨S100000x4, .f32⟩
  | .hbm, ⟨3, _⟩ => ⟨S32x4, .f32⟩
  | .hbm, ⟨4, _⟩ => ⟨S4, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x4, .f32⟩
  | .hbm, ⟨14, _⟩ => ⟨S2000000x3, .f32⟩
  | .hbm, ⟨15, _⟩ => ⟨S2000000, .f32⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S2000000x4, .f32⟩
  | .hbm, ⟨25, _⟩ => ⟨S2000000x32, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x4_S2000000x3_0_1 : S2000000x4.Slices ![0, 1] S2000000x3
  bcast_S_S4 : S_.BroadcastsInDim S4 (![] : Fin 0 → Fin S4.rank)
  bcast_S4_S4x1_0 : S4.BroadcastsInDim S4x1 (![0] : Fin 1 → Fin S4x1.rank)
  gather_S100000x4_S2000000x1_S2000000x4_1_0_n_n_0_1_14_wf : GatherDims.WF S100000x4 S2000000x1 S2000000x4 [1] [0] [] [0] [] 1 ![1, 4]
  dot_S2000000x3_S2000000x3_S2000000_1_1_n_n_0_0_wf : DotDims.WF S2000000x3 S2000000x3 S2000000 [1] [1] [] [] [0] [0]
  gather_S2000000x4_S4x1_S2000000x4_0_1_n_n_1_1_20000001_wf : GatherDims.WF S2000000x4 S4x1 S2000000x4 [0] [1] [] [1] [] 1 ![2000000, 1]
  dot_S2000000x4_S32x4_S2000000x32_1_1_0_0_n_n_wf : DotDims.WF S2000000x4 S32x4 S2000000x32 [1] [1] [0] [0] [] []

variable [Facts₀]

def gather_S100000x4_S2000000x1_S2000000x4_1_0_n_n_0_1_14 : GatherDims S100000x4 S2000000x1 S2000000x4 where
  offsetDims := [1]
  collapsedSliceDims := [0]
  operandBatchingDims := []
  startIndicesBatchingDims := []
  startIndexMap := [0]
  indexVectorDim := 1
  sliceSizes := ![1, 4]
  wf := gather_S100000x4_S2000000x1_S2000000x4_1_0_n_n_0_1_14_wf
def dot_S2000000x3_S2000000x3_S2000000_1_1_n_n_0_0 : DotDims S2000000x3 S2000000x3 S2000000 where
  lhsContracting := [1]
  rhsContracting := [1]
  lhsNonContracting := []
  rhsNonContracting := []
  lhsBatch := [0]
  rhsBatch := [0]
  wf := dot_S2000000x3_S2000000x3_S2000000_1_1_n_n_0_0_wf
def gather_S2000000x4_S4x1_S2000000x4_0_1_n_n_1_1_20000001 : GatherDims S2000000x4 S4x1 S2000000x4 where
  offsetDims := [0]
  collapsedSliceDims := [1]
  operandBatchingDims := []
  startIndicesBatchingDims := []
  startIndexMap := [1]
  indexVectorDim := 1
  sliceSizes := ![2000000, 1]
  wf := gather_S2000000x4_S4x1_S2000000x4_0_1_n_n_1_1_20000001_wf
def dot_S2000000x4_S32x4_S2000000x32_1_1_0_0_n_n : DotDims S2000000x4 S32x4 S2000000x32 where
  lhsContracting := [1]
  rhsContracting := [1]
  lhsNonContracting := [0]
  rhsNonContracting := [0]
  lhsBatch := []
  rhsBatch := []
  wf := dot_S2000000x4_S32x4_S2000000x32_1_1_0_0_n_n_wf

class Facts : Prop extends Facts₀ where

variable [Facts]
-- ==== Proof.KernelValue.lean ====
/-
  The kernel's result array, read index by index at the ideal values.

  Each grid point `t` stages rows `16000·t … 16000·t + 15999` of the permuted node-field array (four columns)
  and the whole transposed weight matrix (4 × 32), multiplies them on the matrix unit into a zero accumulator and
  writes the 16000 × 32 product back to the same rows of the output.  At the ideal values the change of format to
  bf16 is the identity and the product is the exact sum over the four columns, so the output array holds, at
  row `n` and column `p`, the sum over `k < 4` of `fields[n, k] · weightT[k, p]`: one function of the two staged
  arrays.  The 125 blocks of 16000 rows tile the 2,000,000 rows, so that function is the whole array.
-/
import proofs.«177441_j6373731467891_1_alg».proof.Proof.Gen.KernelIdeal.Value
import Idealize.ShloMosaic.Lib.ValueIdx
import Idealize.ShloMosaic.Lib.Pipeline.Value
import Idealize.ShloMosaic.PureOps.Ideal.Laws

noncomputable section

namespace Cert.KernelIdeal.Proj

open Cert.KernelIdeal Cert.KernelIdeal.Gen Idealize.ShloMosaic Idealize.ShloMosaic.TcCoe Idealize.SL.Sem
open Idealize.ShloMosaic.Pipeline (Dat)
open scoped BigOperators

/-! ## One block: the matrix product at an entry -/

/-- Entry `(r, k)` of the staged row block, for the output entry `j = (r, p)`. -/
abbrev blkL (j : S16000x32.Idx) (k : Fin 4) : S16000x4.Idx := fun a => match a with
  | ⟨0, _⟩ => ⟨(j 0).val, (j 0).isLt⟩
  | ⟨1, _⟩ => ⟨k.val, k.isLt⟩
/-- Entry `(k, p)` of the staged weight block, for the output entry `j = (r, p)`. -/
abbrev blkR (j : S16000x32.Idx) (k : Fin 4) : S4x32.Idx := fun a => match a with
  | ⟨0, _⟩ => ⟨k.val, k.isLt⟩
  | ⟨1, _⟩ => ⟨(j 1).val, (j 1).isLt⟩

/-- The product's left operand is read at the output's row … -/
theorem lhs_pay_0 (i : S16000x32.Idx) (q : dot_S16000x4_S4x32_S16000x32_1_0_0_1_n_n.contr.Idx) :
    (dot_S16000x4_S4x32_S16000x32_1_0_0_1_n_n.lhsIdx i q 0).val = (i 0).val := by
  unfold DotDims.lhsIdx
  rw [dif_neg (show ¬(0 : Fin S16000x4.rank) ∈ dot_S16000x4_S4x32_S16000x32_1_0_0_1_n_n.lhsBatch by decide), dif_pos (show (0 : Fin S16000x4.rank) ∈ dot_S16000x4_S4x32_S16000x32_1_0_0_1_n_n.lhsNonContracting by decide)]
  rfl
/-- … and at the contracted column; -/
theorem lhs_pay_1 (i : S16000x32.Idx) (q : dot_S16000x4_S4x32_S16000x32_1_0_0_1_n_n.contr.Idx) :
    (dot_S16000x4_S4x32_S16000x32_1_0_0_1_n_n.lhsIdx i q 1).val = (q ⟨0, by decide⟩).val :=
  dot_S16000x4_S4x32_S16000x32_1_0_0_1_n_n.lhsIdx_val_of_single rfl i q
/-- the right operand at the contracted row … -/
theorem rhs_pay_0 (i : S16000x32.Idx) (q : dot_S16000x4_S4x32_S16000x32_1_0_0_1_n_n.contr.Idx) :
    (dot_S16000x4_S4x32_S16000x32_1_0_0_1_n_n.rhsIdx i q 0).val = (q ⟨0, by decide⟩).val :=
  dot_S16000x4_S4x32_S16000x32_1_0_0_1_n_n.rhsIdx_val_of_single rfl i q
/-- … and at the output's column. -/
theorem rhs_pay_1 (i : S16000x32.Idx) (q : dot_S16000x4_S4x32_S16000x32_1_0_0_1_n_n.contr.Idx) :
    (dot_S16000x4_S4x32_S16000x32_1_0_0_1_n_n.rhsIdx i q 1).val = (i 1).val := by
  unfold DotDims.rhsIdx
  rw [dif_neg (show ¬(1 : Fin S4x32.rank) ∈ dot_S16000x4_S4x32_S16000x32_1_0_0_1_n_n.rhsBatch by decide), dif_pos (show (1 : Fin S4x32.rank) ∈ dot_S16000x4_S4x32_S16000x32_1_0_0_1_n_n.rhsNonContracting by decide)]
  rfl

/-- What the body stores, at entry `j = (r, p)`: the sum over the four columns of the row block's `(r, k)` times
    the weight block's `(k, p)` (the narrowing to bf16 is the identity on extended reals; the accumulator is zero). -/
theorem pay_apply (x0 : Vec Ideal S16000x4 .f32) (x1 : Vec Ideal S4x32 .f32) (j : S16000x32.Idx) :
    k0_pay1 (F := Ideal) x0 x1 j = ∑ k : Fin 4, x0 (blkL j k) * x1 (blkR j k) := by
  unfold k0_pay1
  simp only [matmul, shapeCast_self]
  rw [Ideal.matmul_constant_zero_apply, ← Equiv.sum_comp (ValueIdx.contrEquiv1 dot_S16000x4_S4x32_S16000x32_1_0_0_1_n_n 4 rfl rfl).symm]
  refine Finset.sum_congr rfl fun k _ => ?_
  have hk := ValueIdx.contrEquiv1_symm_val dot_S16000x4_S4x32_S16000x32_1_0_0_1_n_n 4 rfl rfl k
  have el : dot_S16000x4_S4x32_S16000x32_1_0_0_1_n_n.lhsIdx j ((ValueIdx.contrEquiv1 dot_S16000x4_S4x32_S16000x32_1_0_0_1_n_n 4 rfl rfl).symm k) = blkL j k := funext fun a => Fin.ext (by
    match a with
    | ⟨0, _⟩ => exact lhs_pay_0 _ _
    | ⟨1, _⟩ => exact (lhs_pay_1 _ _).trans hk)
  have er : dot_S16000x4_S4x32_S16000x32_1_0_0_1_n_n.rhsIdx j ((ValueIdx.contrEquiv1 dot_S16000x4_S4x32_S16000x32_1_0_0_1_n_n 4 rfl rfl).symm k) = blkR j k := funext fun a => Fin.ext (by
    match a with
    | ⟨0, _⟩ => exact (rhs_pay_0 _ _).trans hk
    | ⟨1, _⟩ => exact rhs_pay_1 _ _)
  rw [el, er]
  rfl

/-! ## From the blocks to the array -/

variable (m : (ℓ : Loc nD τ sig) → Buf (Elt Ideal) ℓ) (ρ : Dev nD → PrngReg)

/-- Entry `(n, k)` of the permuted node fields, for the output entry `i = (n, p)`. -/
abbrev fieldAt (i : S2000000x32.Idx) (k : Fin 4) : S2000000x4.Idx := fun a => match a with
  | ⟨0, _⟩ => ⟨(i 0).val, (i 0).isLt⟩
  | ⟨1, _⟩ => ⟨k.val, k.isLt⟩
/-- Entry `(k, p)` of the transposed weights, for the output entry `i = (n, p)`. -/
abbrev weightAt (i : S2000000x32.Idx) (k : Fin 4) : S4x32.Idx := fun a => match a with
  | ⟨0, _⟩ => ⟨k.val, k.isLt⟩
  | ⟨1, _⟩ => ⟨(i 1).val, (i 1).isLt⟩

/-- The projection: entry `(n, p)` is the sum over `k < 4` of `x[n, k] · w[k, p]`. -/
def proj (x : S2000000x4.Idx → EReal) (w : S4x32.Idx → EReal) : S2000000x32.Idx → EReal :=
  fun i => ∑ k : Fin 4, x (fieldAt i k) * w (weightAt i k)

/-- The permuted node fields as the region finds them: what the host operations before the call left. -/
abbrev fieldsArr (c : Dev nD) : S2000000x4.Idx → EReal := V m c main_v13
/-- The transposed weight matrix as the region finds it. -/
abbrev weightsArr (c : Dev nD) : S4x32.Idx → EReal := V m c main_v14

theorem zero_offsets : (![0, 0] : Fin 2 → Nat) = fun _ => 0 := funext fun a => by fin_cases a <;> rfl

/-- The printed index maps over the 125 points: the row block and the output block are both block `t` along the rows
    and block 0 along the columns; the weight block is always block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The staged row block at point `t`, entry `(r, k)`, is the array's entry `(16000·t + r, k)`. -/
theorem read_fields (c : Dev nD) (t : Fin cfg0.N) (j : S16000x32.Idx) (k : Fin 4) :
    iblk m c 0 t (blkL j k) = fieldsArr m c (fieldAt (((cfg0.win 2).blk t).view.emb j) k) := by
  obtain ⟨e0, e1, e2, e3, e4, e5⟩ := idx_facts t
  show V m c main_v13 (((cfg0.win 0).blk t).view.emb (blkL j k)) = V m c main_v13 _
  refine congrArg _ (funext fun a => Fin.ext ?_)
  match a with
  | ⟨0, _⟩ => show win0_0.index t (0 : Fin 2) * 16000 + 1 * (j 0).val = win0_2.index t (0 : Fin 2) * 16000 + 1 * (j 0).val; omega
  | ⟨1, _⟩ => show win0_0.index t (1 : Fin 2) * 4 + 1 * k.val = k.val; omega

/-- The staged weight block at any point is the whole transposed weight matrix. -/
theorem read_weights (c : Dev nD) (t : Fin cfg0.N) (j : S16000x32.Idx) (k : Fin 4) :
    iblk m c 1 t (blkR j k) = weightsArr m c (weightAt (((cfg0.win 2).blk t).view.emb j) k) := by
  obtain ⟨e0, e1, e2, e3, e4, e5⟩ := idx_facts t
  show V m c main_v14 (((cfg0.win 1).blk t).view.emb (blkR j k)) = V m c main_v14 _
  refine congrArg _ (funext fun a => Fin.ext ?_)
  match a with
  | ⟨0, _⟩ => show win0_1.index t (0 : Fin 2) * 4 + 1 * k.val = k.val; omega
  | ⟨1, _⟩ => show win0_1.index t (1 : Fin 2) * 32 + 1 * (j 1).val = win0_2.index t (1 : Fin 2) * 32 + 1 * (j 1).val; omega

/-- What point `t` writes back is block `t` of the projection of the two staged arrays. -/
theorem flushed_eq (c : Dev nD) (t : Fin cfg0.N) :
    (dats m 0 c).flushed 2 t = ((cfg0.win 2).blk t).view.read (Elt Ideal) (proj (fieldsArr m c) (weightsArr m c)) := by
  rw [Value.flushed2]
  unfold out0_2
  rw [View.canon_unit_zero zero_offsets]
  simp only [View.ld_unit_zero (S := S16000x4) zero_offsets, View.ld_unit_zero (S := S4x32) zero_offsets]
  funext j
  refine (pay_apply (iblk m c 0 t) (iblk m c 1 t) j).trans ?_
  show _ = ∑ k : Fin 4, fieldsArr m c (fieldAt (((cfg0.win 2).blk t).view.emb j) k) * weightsArr m c (weightAt (((cfg0.win 2).blk t).view.emb j) k)
  refine Finset.sum_congr rfl fun k _ => ?_
  rw [read_fields m c t j k, read_weights m c t j k]

/-- An index of the output array is in point `t`'s block iff each coordinate is in the block's range on its axis. -/
theorem mem_blk (t : Fin cfg0.N) (i : S2000000x32.Idx) :
    i ∈ ((cfg0.win 2).blk t).view.set ↔ ∀ a : Fin 2, win0_2.index t a * S16000x32.size a ≤ (i a).val ∧ (i a).val < win0_2.index t a * S16000x32.size a + S16000x32.size a := by
  show i ∈ ((View.whole main_v15).slice (win0_2.rect t)).set ↔ _
  rw [View.set_slice_whole, Rect.mem_set_unit]
  exact Iff.rfl

/-- The 125 blocks of 16000 rows tile the 2,000,000 rows: row `n` is in the block of point `n / 16000`. -/
theorem cover (i : S2000000x32.Idx) : ∃ t : Fin cfg0.N, (cfg0.win 2).flush t = true ∧ i ∈ ((cfg0.win 2).blk t).view.set := by
  have hi0 : (i 0).val < 2000000 := (i 0).isLt
  have hi1 : (i 1).val < 32 := (i 1).isLt
  have ht : (i 0).val / 16000 < cfg0.N := by rw [show cfg0.N = 125 from N_0]; omega
  obtain ⟨e0, e1, e2, e3, e4, e5⟩ := idx_facts ⟨(i 0).val / 16000, ht⟩
  have e4' : win0_2.index ⟨(i 0).val / 16000, ht⟩ (0 : Fin 2) = (i 0).val / 16000 := e4
  refine ⟨⟨(i 0).val / 16000, ht⟩, flush0_2 _, ?_⟩
  rw [mem_blk]
  intro a
  match a with
  | ⟨0, _⟩ =>
    show win0_2.index ⟨(i 0).val / 16000, ht⟩ (0 : Fin 2) * 16000 ≤ (i 0).val ∧ (i 0).val < win0_2.index ⟨(i 0).val / 16000, ht⟩ (0 : Fin 2) * 16000 + 16000
    omega
  | ⟨1, _⟩ =>
    show win0_2.index ⟨(i 0).val / 16000, ht⟩ (1 : Fin 2) * 32 ≤ (i 1).val ∧ (i 1).val < win0_2.index ⟨(i 0).val / 16000, ht⟩ (1 : Fin 2) * 32 + 32
    omega

/-- The output array after the run is the projection of the two staged arrays. -/
theorem final (c : Dev nD) : (dats m 0 c).arrAt 2 cfg0.N = proj (fieldsArr m c) (weightsArr m c) :=
  (dats m 0 c).arrAt_eq_of_cover 2 (proj (fieldsArr m c) (weightsArr m c)) (fun t _ => flushed_eq m c t) cover

/-- The kernel program's run: the result is the projection of the permuted node fields and the transposed weights as
    the host operations before the call left them; the arguments are unchanged. -/
theorem run : θ_run defs (onTc (τ := τ) (main (F := Ideal))) ⟨m, fun _ => 0, ρ⟩ fun r => ∀ c : Dev nD,
      r.2.mem ((c : Thread nD τ).loc main_v15) = proj (fieldsArr m c) (weightsArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Proj

end
-- ==== Proof.KernelHost.lean ====
/-
  The host operations the kernel program runs before its call, read back: the array the call stages as its first
  operand is each node's row of the field table with the columns permuted (the node index normalised, the rows
  gathered, the columns gathered at the constant list [0, 3, 1, 2]), and its second operand is the weight matrix
  transposed.
-/
import proofs.«177441_j6373731467891_1_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- The node index as the gather reads it: a negative index has the table's length, 100000, added; then one column. -/
abbrev rowIndex (batch : (⟨S2000000, .i32⟩ : BufTy).Contents (Elt F)) : (⟨S2000000x1, .i32⟩ : BufTy).Contents (Elt F) :=
  broadcastInDim S2000000x1 ![0] bcast_S2000000_S2000000x1_0
    (select (cmpi .slt batch (broadcastInDim S2000000 ![] bcast_S_S2000000 (constantI S_ 32 0#32)))
      (addi batch (broadcastInDim S2000000 ![] bcast_S_S2000000 (constantI S_ 32 100000#32))) batch)

/-- The constant column list [0, 3, 1, 2], normalised the same way (length 4), as one column. -/
abbrev colIndex : (⟨S4x1, .i32⟩ : BufTy).Contents (Elt F) :=
  broadcastInDim S4x1 ![0] bcast_S4_S4x1_0
    (select (cmpi .slt (fun i => lit0 (S4.rowMajor i)) (broadcastInDim S4 ![] bcast_S_S4 (constantI S_ 32 0#32)))
      (addi (fun i => lit0 (S4.rowMajor i)) (broadcastInDim S4 ![] bcast_S_S4 (constantI S_ 32 4#32))) (fun i => lit0 (S4.rowMajor i)))

/-- Each node's row of the field table, its columns permuted. -/
abbrev nodeFields (field : (⟨S100000x4, .f32⟩ : BufTy).Contents (Elt F)) (batch : (⟨S2000000, .i32⟩ : BufTy).Contents (Elt F)) :
    (⟨S2000000x4, .f32⟩ : BufTy).Contents (Elt F) :=
  Host.gather gather_S2000000x4_S4x1_S2000000x4_0_1_n_n_1_1_20000001 (Host.gather gather_S100000x4_S2000000x1_S2000000x4_1_0_n_n_0_1_14 field (rowIndex batch)) (colIndex (F := F))

variable (m : (ℓ : Loc nD τ sig) → Buf (Elt F) ℓ)

/-- The call's first operand, as the call finds it. -/
theorem fields_eq (c : Dev nD) :
    (V m c main_v13 : (⟨S2000000x4, .f32⟩ : BufTy).Contents (Elt F))
      = nodeFields (m ((c : Thread nD τ).loc main_arg2)) (m ((c : Thread nD τ).loc main_arg0)) := by
  dsimp only [Gen.V, Gen.hostOps0]; after_results; rfl

/-- The call's second operand, as the call finds it. -/
theorem weights_eq (c : Dev nD) :
    (V m c main_v14 : (⟨S4x32, .f32⟩ : BufTy).Contents (Elt F))
      = transpose S4x32 [1, 0] (m ((c : Thread nD τ).loc main_arg3)) transposes_S32x4_S4x32_1_0 := by
  dsimp only [Gen.V, Gen.hostOps0]; after_results

end Cert.KernelIdeal.HostPrefix

end
-- ==== Proof.RefRun.lean ====
/-
  The reference program's run, read back.

  The reference is a straight line of host operations: the node index is normalised (a negative index gets the
  table's length added), each node's row of the field table is gathered, the four columns are permuted by a second
  gather at the constant column list [0, 3, 1, 2], and the result is contracted with the weight matrix along the
  column axis.  (A contraction of the positions with three of the gathered columns is computed on the way and used
  by nothing.)  Every weakly fair execution terminates with the result buffer at that composed term of the
  argument arrays and the arguments unchanged.
-/
import proofs.«177441_j6373731467891_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 22 operations, in order. -/
abbrev ops : List (HloOp τ sig (Elt F)) :=
  [ nullary main_c (fun i => lit0 (S4.rowMajor i)),
    nullary main_c_0 (constantI S_ 32 0#32),
    unary main_c_0 main_v0 (broadcastInDim S2000000 ![] bcast_S_S2000000 : (⟨S_, .i32⟩ : BufTy).Contents (Elt F) → (⟨S2000000, .i32⟩ : BufTy).Contents (Elt F)),
    binary main_arg0 main_v0 main_v1 (cmpi .slt : (⟨S2000000, .i32⟩ : BufTy).Contents (Elt F) → (⟨S2000000, .i32⟩ : BufTy).Contents (Elt F) → (⟨S2000000, .i1⟩ : BufTy).Contents (Elt F)),
    nullary main_c_1 (constantI S_ 32 100000#32),
    unary main_c_1 main_v2 (broadcastInDim S2000000 ![] bcast_S_S2000000 : (⟨S_, .i32⟩ : BufTy).Contents (Elt F) → (⟨S2000000, .i32⟩ : BufTy).Contents (Elt F)),
    binary main_arg0 main_v2 main_v3 (addi : (⟨S2000000, .i32⟩ : BufTy).Contents (Elt F) → (⟨S2000000, .i32⟩ : BufTy).Contents (Elt F) → (⟨S2000000, .i32⟩ : BufTy).Contents (Elt F)),
    ternary main_v1 main_v3 main_arg0 main_v4 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v4 main_v5 (broadcastInDim S2000000x1 ![0] bcast_S2000000_S2000000x1_0 : (⟨S2000000, .i32⟩ : BufTy).Contents (Elt F) → (⟨S2000000x1, .i32⟩ : BufTy).Contents (Elt F)),
    binary main_arg2 main_v5 main_v6 ((fun x i => Host.gather gather_S100000x4_S2000000x1_S2000000x4_1_0_n_n_0_1_14 x i) : (⟨S100000x4, .f32⟩ : BufTy).Contents (Elt F) → (⟨S2000000x1, .i32⟩ : BufTy).Contents (Elt F) → (⟨S2000000x4, .f32⟩ : BufTy).Contents (Elt F)),
    unary main_v6 main_v7 ((extractStridedSlice S2000000x3 ![0, 1] · slices_S2000000x4_S2000000x3_0_1) : (⟨S2000000x4, .f32⟩ : BufTy).Contents (Elt F) → (⟨S2000000x3, .f32⟩ : BufTy).Contents (Elt F)),
    binary main_arg1 main_v7 main_v8 ((fun l r => Host.dotGeneral dot_S2000000x3_S2000000x3_S2000000_1_1_n_n_0_0 none l r) : (⟨S2000000x3, .f32⟩ : BufTy).Contents (Elt F) → (⟨S2000000x3, .f32⟩ : BufTy).Contents (Elt F) → (⟨S2000000, .f32⟩ : BufTy).Contents (Elt F)),
    nullary main_c_2 (constantI S_ 32 0#32),
    unary main_c_2 main_v9 (broadcastInDim S4 ![] bcast_S_S4 : (⟨S_, .i32⟩ : BufTy).Contents (Elt F) → (⟨S4, .i32⟩ : BufTy).Contents (Elt F)),
    binary main_c main_v9 main_v10 (cmpi .slt : (⟨S4, .i32⟩ : BufTy).Contents (Elt F) → (⟨S4, .i32⟩ : BufTy).Contents (Elt F) → (⟨S4, .i1⟩ : BufTy).Contents (Elt F)),
    nullary main_c_3 (constantI S_ 32 4#32),
    unary main_c_3 main_v11 (broadcastInDim S4 ![] bcast_S_S4 : (⟨S_, .i32⟩ : BufTy).Contents (Elt F) → (⟨S4, .i32⟩ : BufTy).Contents (Elt F)),
    binary main_c main_v11 main_v12 (addi : (⟨S4, .i32⟩ : BufTy).Contents (Elt F) → (⟨S4, .i32⟩ : BufTy).Contents (Elt F) → (⟨S4, .i32⟩ : BufTy).Contents (Elt F)),
    ternary main_v10 main_v12 main_c main_v13 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v13 main_v14 (broadcastInDim S4x1 ![0] bcast_S4_S4x1_0 : (⟨S4, .i32⟩ : BufTy).Contents (Elt F) → (⟨S4x1, .i32⟩ : BufTy).Contents (Elt F)),
    binary main_v6 main_v14 main_v15 ((fun x i => Host.gather gather_S2000000x4_S4x1_S2000000x4_0_1_n_n_1_1_20000001 x i) : (⟨S2000000x4, .f32⟩ : BufTy).Contents (Elt F) → (⟨S4x1, .i32⟩ : BufTy).Contents (Elt F) → (⟨S2000000x4, .f32⟩ : BufTy).Contents (Elt F)),
    binary main_v15 main_arg3 main_v16 ((fun l r => Host.dotGeneral dot_S2000000x4_S32x4_S2000000x32_1_1_0_0_n_n none l r) : (⟨S2000000x4, .f32⟩ : BufTy).Contents (Elt F) → (⟨S32x4, .f32⟩ : BufTy).Contents (Elt F) → (⟨S2000000x32, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The node index as the gather reads it: a negative index has the table's length, 100000, added; then one column. -/
abbrev rowIndex (batch : (⟨S2000000, .i32⟩ : BufTy).Contents (Elt F)) : (⟨S2000000x1, .i32⟩ : BufTy).Contents (Elt F) :=
  broadcastInDim S2000000x1 ![0] bcast_S2000000_S2000000x1_0
    (select (cmpi .slt batch (broadcastInDim S2000000 ![] bcast_S_S2000000 (constantI S_ 32 0#32)))
      (addi batch (broadcastInDim S2000000 ![] bcast_S_S2000000 (constantI S_ 32 100000#32))) batch)

/-- The constant column list [0, 3, 1, 2], normalised the same way (length 4), as one column. -/
abbrev colIndex : (⟨S4x1, .i32⟩ : BufTy).Contents (Elt F) :=
  broadcastInDim S4x1 ![0] bcast_S4_S4x1_0
    (select (cmpi .slt (fun i => lit0 (S4.rowMajor i)) (broadcastInDim S4 ![] bcast_S_S4 (constantI S_ 32 0#32)))
      (addi (fun i => lit0 (S4.rowMajor i)) (broadcastInDim S4 ![] bcast_S_S4 (constantI S_ 32 4#32))) (fun i => lit0 (S4.rowMajor i)))

/-- Each node's row of the field table, its columns permuted. -/
abbrev nodeFields (field : (⟨S100000x4, .f32⟩ : BufTy).Contents (Elt F)) (batch : (⟨S2000000, .i32⟩ : BufTy).Contents (Elt F)) :
    (⟨S2000000x4, .f32⟩ : BufTy).Contents (Elt F) :=
  Host.gather gather_S2000000x4_S4x1_S2000000x4_0_1_n_n_1_1_20000001 (Host.gather gather_S100000x4_S2000000x1_S2000000x4_1_0_n_n_0_1_14 field (rowIndex batch)) (colIndex (F := F))

/-- On every device, from any memory with zero counters: every weakly fair execution of @main terminates with the
    result at the contraction of the permuted node fields with the weight matrix, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = Host.dotGeneral dot_S2000000x4_S32x4_S2000000x32_1_1_0_0_n_n none (nodeFields (m ((c.tc : Thread nD τ).loc main_arg2)) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v16).trans (by after_results; rfl),
      (h c main_arg0).trans (StableHlo.after_of_forall_not_mem (b := Proc.devRef .tc main_arg0) _ _ (List.forall_iff_forall_mem.mp (by
        simp only [ops, List.Forall, StableHlo.nullary_writes, StableHlo.unary_writes, StableHlo.binary_writes, StableHlo.ternary_writes, Finset.mem_singleton]
        repeat' apply And.intro
        all_goals exact StableHlo.devRef_ne_of_ne (by decide)))),
      (h c main_arg1).trans (StableHlo.after_of_forall_not_mem (b := Proc.devRef .tc main_arg1) _ _ (List.forall_iff_forall_mem.mp (by
        simp only [ops, List.Forall, StableHlo.nullary_writes, StableHlo.unary_writes, StableHlo.binary_writes, StableHlo.ternary_writes, Finset.mem_singleton]
        repeat' apply And.intro
        all_goals exact StableHlo.devRef_ne_of_ne (by decide)))),
      (h c main_arg2).trans (StableHlo.after_of_forall_not_mem (b := Proc.devRef .tc main_arg2) _ _ (List.forall_iff_forall_mem.mp (by
        simp only [ops, List.Forall, StableHlo.nullary_writes, StableHlo.unary_writes, StableHlo.binary_writes, StableHlo.ternary_writes, Finset.mem_singleton]
        repeat' apply And.intro
        all_goals exact StableHlo.devRef_ne_of_ne (by decide)))),
      (h c main_arg3).trans (StableHlo.after_of_forall_not_mem (b := Proc.devRef .tc main_arg3) _ _ (List.forall_iff_forall_mem.mp (by
        simp only [ops, List.Forall, StableHlo.nullary_writes, StableHlo.unary_writes, StableHlo.binary_writes, StableHlo.ternary_writes, Finset.mem_singleton]
        repeat' apply And.intro
        all_goals exact StableHlo.devRef_ne_of_ne (by decide))))⟩)
    (run_seq scopedRefs_eq scopedSems_eq defs main (fun _ => ops) main_eq (fun _ => ops_sub) m ρ)

end Cert.ReferenceIdeal.HostRun

end
-- ==== Proof.RefValue.lean ====
/-
  The reference's contraction read at an entry: at the ideal values the host's `dot_general` of the permuted node
  fields [N, 4] with the weight matrix [32, 4], contracting the two column axes, is at `(n, p)` the sum over `k < 4`
  of `fields[n, k] · weight[p, k]`.
-/
import proofs.«177441_j6373731467891_1_alg».proof.Proof.Gen.ReferenceIdeal
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open scoped BigOperators

/-- Entry `(n, k)` of the permuted node fields, for the output entry `i = (n, p)`. -/
abbrev fieldAt (i : S2000000x32.Idx) (k : Fin 4) : S2000000x4.Idx := fun a => match a with
  | ⟨0, _⟩ => ⟨(i 0).val, (i 0).isLt⟩
  | ⟨1, _⟩ => ⟨k.val, k.isLt⟩
/-- Entry `(p, k)` of the weight matrix, for the output entry `i = (n, p)`. -/
abbrev matAt (i : S2000000x32.Idx) (k : Fin 4) : S32x4.Idx := fun a => match a with
  | ⟨0, _⟩ => ⟨(i 1).val, (i 1).isLt⟩
  | ⟨1, _⟩ => ⟨k.val, k.isLt⟩

/-- The left operand is read at the output's row … -/
theorem lhs_dot_0 (i : S2000000x32.Idx) (q : dot_S2000000x4_S32x4_S2000000x32_1_1_0_0_n_n.contr.Idx) :
    (dot_S2000000x4_S32x4_S2000000x32_1_1_0_0_n_n.lhsIdx i q 0).val = (i 0).val := by
  unfold DotDims.lhsIdx
  rw [dif_neg (show ¬(0 : Fin S2000000x4.rank) ∈ dot_S2000000x4_S32x4_S2000000x32_1_1_0_0_n_n.lhsBatch by decide), dif_pos (show (0 : Fin S2000000x4.rank) ∈ dot_S2000000x4_S32x4_S2000000x32_1_1_0_0_n_n.lhsNonContracting by decide)]
  rfl
/-- … and at the contracted column; -/
theorem lhs_dot_1 (i : S2000000x32.Idx) (q : dot_S2000000x4_S32x4_S2000000x32_1_1_0_0_n_n.contr.Idx) :
    (dot_S2000000x4_S32x4_S2000000x32_1_1_0_0_n_n.lhsIdx i q 1).val = (q ⟨0, by decide⟩).val :=
  dot_S2000000x4_S32x4_S2000000x32_1_1_0_0_n_n.lhsIdx_val_of_single rfl i q
/-- the right operand at the output's column, its own row axis, … -/
theorem rhs_dot_0 (i : S2000000x32.Idx) (q : dot_S2000000x4_S32x4_S2000000x32_1_1_0_0_n_n.contr.Idx) :
    (dot_S2000000x4_S32x4_S2000000x32_1_1_0_0_n_n.rhsIdx i q 0).val = (i 1).val := by
  unfold DotDims.rhsIdx
  rw [dif_neg (show ¬(0 : Fin S32x4.rank) ∈ dot_S2000000x4_S32x4_S2000000x32_1_1_0_0_n_n.rhsBatch by decide), dif_pos (show (0 : Fin S32x4.rank) ∈ dot_S2000000x4_S32x4_S2000000x32_1_1_0_0_n_n.rhsNonContracting by decide)]
  rfl
/-- … and at the contracted column. -/
theorem rhs_dot_1 (i : S2000000x32.Idx) (q : dot_S2000000x4_S32x4_S2000000x32_1_1_0_0_n_n.contr.Idx) :
    (dot_S2000000x4_S32x4_S2000000x32_1_1_0_0_n_n.rhsIdx i q 1).val = (q ⟨0, by decide⟩).val :=
  dot_S2000000x4_S32x4_S2000000x32_1_1_0_0_n_n.rhsIdx_val_of_single rfl i q

/-- The contraction at entry `i = (n, p)`. -/
theorem dot_apply (x : FVec Ideal S2000000x4 .f32) (w : FVec Ideal S32x4 .f32) (i : S2000000x32.Idx) :
    Host.dotGeneral dot_S2000000x4_S32x4_S2000000x32_1_1_0_0_n_n none x w i = ∑ k : Fin 4, x (fieldAt i k) * w (matAt i k) := by
  simp only [Host.dotGeneral]
  rw [Ideal.dotGeneral_apply, ← Equiv.sum_comp (ValueIdx.contrEquiv1 dot_S2000000x4_S32x4_S2000000x32_1_1_0_0_n_n 4 rfl rfl).symm]
  refine Finset.sum_congr rfl fun k _ => ?_
  have hk := ValueIdx.contrEquiv1_symm_val dot_S2000000x4_S32x4_S2000000x32_1_1_0_0_n_n 4 rfl rfl k
  have el : dot_S2000000x4_S32x4_S2000000x32_1_1_0_0_n_n.lhsIdx i ((ValueIdx.contrEquiv1 dot_S2000000x4_S32x4_S2000000x32_1_1_0_0_n_n 4 rfl rfl).symm k) = fieldAt i k := funext fun a => Fin.ext (by
    match a with
    | ⟨0, _⟩ => exact lhs_dot_0 _ _
    | ⟨1, _⟩ => exact (lhs_dot_1 _ _).trans hk)
  have er : dot_S2000000x4_S32x4_S2000000x32_1_1_0_0_n_n.rhsIdx i ((ValueIdx.contrEquiv1 dot_S2000000x4_S32x4_S2000000x32_1_1_0_0_n_n 4 rfl rfl).symm k) = matAt i k := funext fun a => Fin.ext (by
    match a with
    | ⟨0, _⟩ => exact rhs_dot_0 _ _
    | ⟨1, _⟩ => exact (rhs_dot_1 _ _).trans hk)
  rw [el, er]

end Cert.ReferenceIdeal.RefValue

end
-- ==== Proof.Bridge.lean ====
/-
  The two programs compute one function.

  Both programs gather the same permuted node fields `x` [N, 4] from the field table and the node index by the same
  host operations.  The kernel program then transposes the weight matrix `w` [32, 4] and forms, block by block,
  `∑ k, x[n, k] · wᵀ[k, p]`; the reference contracts `x` with `w` along the column axis, `∑ k, x[n, k] · w[p, k]`.
  Entry `(k, p)` of the transpose is entry `(p, k)` of the matrix, so the two sums agree term by term: no law of
  the extended reals is used beyond reading each operation at an index.
-/
import proofs.«177441_j6373731467891_1_alg».proof.Proof.KernelValue
import proofs.«177441_j6373731467891_1_alg».proof.Proof.KernelHost
import proofs.«177441_j6373731467891_1_alg».proof.Proof.RefRun
import proofs.«177441_j6373731467891_1_alg».proof.Proof.RefValue
import Idealize.ShloMosaic.Lib.Pipeline.Value

noncomputable section

namespace Cert.Bridge

open Idealize.ShloMosaic Idealize.ShloMosaic.TcCoe Idealize.SL.Sem
open scoped BigOperators

/-- The permuted node fields are the same term in the two programs: the same host operations of the same arrays. -/
theorem nodeFields_eq (field : Cert.KernelIdeal.S100000x4.Idx → EReal) (batch : Cert.KernelIdeal.S2000000.Idx → BitVec 32) :
    Cert.ReferenceIdeal.HostRun.nodeFields (F := Ideal) field batch = Cert.KernelIdeal.HostPrefix.nodeFields (F := Ideal) field batch := rfl

/-- The reference's contraction with the weight matrix is the kernel's projection with its transpose. -/
theorem contraction_eq (x : FVec Ideal Cert.ReferenceIdeal.S2000000x4 .f32) (w : FVec Ideal Cert.ReferenceIdeal.S32x4 .f32) :
    Host.dotGeneral (F := Ideal) Cert.ReferenceIdeal.dot_S2000000x4_S32x4_S2000000x32_1_1_0_0_n_n none x w
      = Cert.KernelIdeal.Proj.proj x (transpose Cert.KernelIdeal.S4x32 [1, 0] w Cert.KernelIdeal.Gen.transposes_S32x4_S4x32_1_0) := by
  funext i
  rw [Cert.ReferenceIdeal.RefValue.dot_apply]
  unfold Cert.KernelIdeal.Proj.proj
  refine Finset.sum_congr rfl fun k _ => ?_
  refine congrArg (x (Cert.ReferenceIdeal.RefValue.fieldAt i k) * ·) ?_
  exact (transpose_apply [1, 0] w Cert.KernelIdeal.Gen.transposes_S32x4_S4x32_1_0 (Cert.KernelIdeal.Proj.weightAt i k)
    (Cert.ReferenceIdeal.RefValue.matAt i k) (fun b => match b with | ⟨0, _⟩ => rfl | ⟨1, _⟩ => rfl)).symm

end Cert.Bridge

end
-- ==== Proof.lean ====
/-
  The certificate of a node-field projection: each of 2,000,000 nodes takes its graph's row of a 100000 × 4 field
  table, the four columns are permuted, and the row is multiplied by a 32 × 4 weight matrix, giving 32 numbers per
  node.

  The kernel program gathers and permutes on the host, transposes the weights, and multiplies on the matrix unit,
  16000 nodes per grid point over 125 points; the reference gathers and permutes by the same host operations and
  contracts with the weight matrix directly.  At the ideal values (the narrowing to bf16 the identity, the matrix
  product the exact sum into a zero accumulator) both results are, at node `n` and output `p`,
  `∑ k < 4, fields[n, k] · weight[p, k]`.

  The three frames: the two kernel programs' are the generated frame proofs; the reference's is its run with the
  result dropped.  The idealization rewrote nothing, so there is nothing to preserve.  The equivalence sets the
  kernel's run (its 125 written blocks assembled into one array) beside the reference's run and identifies the two
  sums term by term through the transpose.
-/
import proofs.«177441_j6373731467891_1_alg».proof.Defs
import proofs.«177441_j6373731467891_1_alg».proof.Proof.Gen.Kernel
import proofs.«177441_j6373731467891_1_alg».proof.Proof.Gen.Kernel.Skeleton
import proofs.«177441_j6373731467891_1_alg».proof.Proof.Gen.Kernel.Launch
import proofs.«177441_j6373731467891_1_alg».proof.Proof.Gen.Kernel.Points
import proofs.«177441_j6373731467891_1_alg».proof.Proof.Gen.Kernel.Frame
import proofs.«177441_j6373731467891_1_alg».proof.Proof.Gen.KernelIdeal
import proofs.«177441_j6373731467891_1_alg».proof.Proof.Gen.KernelIdeal.Skeleton
import proofs.«177441_j6373731467891_1_alg».proof.Proof.Gen.KernelIdeal.Launch
import proofs.«177441_j6373731467891_1_alg».proof.Proof.Gen.KernelIdeal.Points
import proofs.«177441_j6373731467891_1_alg».proof.Proof.Gen.KernelIdeal.Frame
import proofs.«177441_j6373731467891_1_alg».proof.Proof.Gen.ReferenceIdeal
import proofs.«177441_j6373731467891_1_alg».proof.Proof.Gen.Pre_finite_inputs
import proofs.«177441_j6373731467891_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- From memories agreeing on the arguments both programs end with the projection of the permuted node fields. -/
theorem algebraic : Cert.algebraic_KernelIdeal_ReferenceIdeal := by
  intro m ρ m' ρ' _ hagree
  refine ⟨fun c => Cert.KernelIdeal.Proj.proj (Cert.KernelIdeal.Proj.fieldsArr m c) (Cert.KernelIdeal.Proj.weightsArr m c),
    Cert.KernelIdeal.Proj.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.2.1, (hagree c).2.2.2, Cert.Bridge.nodeFields_eq, Cert.Bridge.contraction_eq]
  exact congrArg₂ Cert.KernelIdeal.Proj.proj (Cert.KernelIdeal.HostPrefix.fields_eq m c).symm
    (Cert.KernelIdeal.HostPrefix.weights_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
